-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S64x2048x2048 : Shape := ⟨3, ![64, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S4x16x2048x2048 : Shape := ⟨4, ![4, 16, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S64x2048x2048, .f32⟩
  | .hbm, ⟨8, _⟩ => ⟨S4x16x2048x64, .f32⟩
  | .hbm, ⟨9, _⟩ => ⟨S4x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S64x2048x64_S4x16x2048x64 : S64x2048x64.ShapeCasts S4x16x2048x64
  shapeCasts_S64x2048x2048_S4x16x2048x2048 : S64x2048x2048.ShapeCasts S4x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S64x2048x2048.size a
  hwx0_4 : ∀ i : grid0.Coords, EltTy.bits .f32 = 32 ∨ (Rect.block (s := S64x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S4x16x2048x2048, .f32⟩
  | .hbm, ⟨10, _⟩ => ⟨S4x16x2048x2048, .f32⟩
  | .hbm, ⟨11, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.LibMatmulNT.lean ====
/-
  A matrix product whose two operands are both contracted along their columns (an `R × K` matrix against an `N × K`
  matrix: every row of the left against every row of the right, the product `A · Bᵀ` with no transpose spelt), into a
  zero accumulator, read at an index at the ideal instance: the entry at `(r, j)` is the sum over `k` of row `r` of the
  left operand against row `j` of the right. Stated for any numbers of rows and any contraction length.
-/
import Idealize.ShloMosaic.PureOps.Ideal.Laws
import Idealize.ShloMosaic.Lib.ValueIdx

noncomputable section

open scoped BigOperators

namespace Cert.MatmulNT

open Idealize.ShloMosaic Idealize.ShloMosaic.ValueIdx

variable {R N K : ℕ} {φ₁ φ₂ : FTy}

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- The left operand's free axis is its rows, and they are the result's rows: the left index's row is the result
    index's row, whatever the contraction position. -/
theorem lhsIdx_row (d : DotDims ⟨2, ![R, K]⟩ ⟨2, ![N, K]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- The right operand's free axis is its rows too, and they are the result's columns: the right index's row is the
    result index's column, whatever the contraction position. -/
theorem rhsIdx_row (d : DotDims ⟨2, ![R, K]⟩ ⟨2, ![N, K]⟩ ⟨2, ![R, N]⟩)
    (hln : d.lhsNonContracting = [(0 : Fin 2)]) (hrn : d.rhsNonContracting = [(0 : Fin 2)])
    (hlb : d.lhsBatch = []) (hrb : d.rhsBatch = [])
    (j : (⟨2, ![R, N]⟩ : Shape).Idx) (q : d.contr.Idx) : (d.rhsIdx j q (0 : Fin 2)).val = (j (1 : Fin 2)).val := by
  have hnb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- `A · Bᵀ` into the zero accumulator, read at `(r, j)`: the sum over `k` of `A (r, k) · B (j, k)`. -/
theorem matmul_nt_apply (d : DotDims ⟨2, ![R, K]⟩ ⟨2, ![N, K]⟩ ⟨2, ![R, N]⟩)
    (hlc : d.lhsContracting = [(1 : Fin 2)]) (hrc : d.rhsContracting = [(1 : Fin 2)])
    (hln : d.lhsNonContracting = [(0 : Fin 2)]) (hrn : d.rhsNonContracting = [(0 : Fin 2)])
    (hlb : d.lhsBatch = []) (hrb : d.rhsBatch = [])
    (prec : Option ContractPrecision) (lhs : FVec Ideal ⟨2, ![R, K]⟩ φ₁) (rhs : FVec Ideal ⟨2, ![N, K]⟩ φ₂)
    (r : Fin R) (j : Fin N) :
    FloatOps.matmul d prec lhs rhs (constant ⟨2, ![R, N]⟩ .f32 0x00000000#32) (ix2 r j)
      = ∑ k : Fin K, lhs (ix2 r k) * rhs (ix2 j k) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 j k :=
    eq_ix2_of_val _ j k (rhsIdx_row d hln hrn hlb hrb _ _)
      ((d.rhsIdx_val_of_single hrc _ _).trans (contrEquiv1_symm_val d K hr hs k))
  show lhs (d.lhsIdx (ix2 r j) ((contrEquiv1 d K hr hs).symm k)) * rhs (d.rhsIdx (ix2 r j) ((contrEquiv1 d K hr hs).symm k)) = _
  rw [hL, hR]

end Cert.MatmulNT

end
-- ==== Proof.Payload.lean ====
/-
  What the kernel body stores, read at an index, at the ideal instance. At a grid point the body holds one block of 512
  query rows and ALL 2048 key rows and value rows of one problem (each block with a leading unit axis). It stores
      scores (r, j) = max (∑ d, (q (r, d) · ⅛) · k (j, d)) 0      (a product of the scaled query block against the
                                                                   key block, both contracted along their columns),
      context (r, e) = ∑ j, scores (r, j) · v (j, e)               (a plain product of the scores against the value block).
  The narrowing to bf16 before each product is the identity on the extended reals.
-/
import proofs.«134147_j40166534152796_1_alg».proof.Proof.Gen.KernelIdeal.Skeleton
import proofs.«134147_j40166534152796_1_alg».proof.Proof.LibRowOps
import proofs.«134147_j40166534152796_1_alg».proof.Proof.LibMatmulNT
import Idealize.ShloMosaic.Lib.Pipeline.Value
import Idealize.ShloMosaic.Lib.ValueIdx

noncomputable section

open scoped BigOperators

namespace Cert.ReluAttention.Body

open Cert.KernelIdeal Cert.KernelIdeal.Gen
open Idealize.ShloMosaic Idealize.ShloMosaic.ValueIdx

/-! ## The blocks' leading unit axis -/

/-- The query block [1, 512, 64] viewed [512, 64] reads `(r, d)` at `(0, r, d)`. -/
theorem queryBlock_apply (x : S1x512x64.Idx → EReal) (h : S1x512x64.ShapeCasts S512x64) (r : Fin 512) (d : Fin 64) :
    shapeCast S512x64 x h (ix2 r d) = x (ix3 (0 : Fin 1) r d) :=
  shapeCast_apply x h _ _ (by
    rw [Shape.rowMajor_val_three, Shape.rowMajor_val_two]
    show (0 * 512 + r.val) * 64 + d.val = r.val * 64 + d.val
    omega)

/-- A key or value block [1, 2048, 64] viewed [2048, 64] reads `(j, d)` at `(0, j, d)`. -/
theorem keyBlock_apply (x : S1x2048x64.Idx → EReal) (h : S1x2048x64.ShapeCasts S2048x64) (j : Fin 2048) (d : Fin 64) :
    shapeCast S2048x64 x h (ix2 j d) = x (ix3 (0 : Fin 1) j d) :=
  shapeCast_apply x h _ _ (by
    rw [Shape.rowMajor_val_three, Shape.rowMajor_val_two]
    show (0 * 2048 + j.val) * 64 + d.val = j.val * 64 + d.val
    omega)

/-- The scores [512, 2048] stored as a [1, 512, 2048] block read `(0, r, j)` at `(r, j)`. -/
theorem scoresBlock_apply (x : S512x2048.Idx → EReal) (h : S512x2048.ShapeCasts S1x512x2048) (u : Fin 1) (r : Fin 512)
    (j : Fin 2048) : shapeCast S1x512x2048 x h (ix3 u r j) = x (ix2 r j) :=
  shapeCast_apply x h _ _ (by
    have hu : u.val = 0 := by omega
    rw [Shape.rowMajor_val_three, Shape.rowMajor_val_two]
    show r.val * 2048 + j.val = (u.val * 512 + r.val) * 2048 + j.val
    rw [hu]; omega)

/-- The context [512, 64] stored as a [1, 512, 64] block reads `(0, r, e)` at `(r, e)`. -/
theorem contextBlock_apply (x : S512x64.Idx → EReal) (h : S512x64.ShapeCasts S1x512x64) (u : Fin 1) (r : Fin 512)
    (e : Fin 64) : shapeCast S1x512x64 x h (ix3 u r e) = x (ix2 r e) :=
  shapeCast_apply x h _ _ (by
    have hu : u.val = 0 := by omega
    rw [Shape.rowMajor_val_three, Shape.rowMajor_val_two]
    show r.val * 64 + e.val = (u.val * 512 + r.val) * 64 + e.val
    rw [hu]; omega)

/-! ## The two stores -/

/-- The relu scores of the block's query rows against every key row. -/
theorem scores_apply (x0 : Vec Ideal S1x512x64 .f32) (x1 : Vec Ideal S1x2048x64 .f32) (r : Fin 512) (j : Fin 2048) :
    k0_pay1 (F := Ideal) x0 x1 (ix2 r j)
      = max (∑ d : Fin 64, (x0 (ix3 (0 : Fin 1) r d) * Ideal.ofBits .f32 0x3E000000#32) * x1 (ix3 (0 : Fin 1) j d)) 0 := by
  unfold k0_pay1
  simp only [matmul]
  show max (FloatOps.matmul dot_S512x64_S2048x64_S512x2048_1_1_0_0_n_n none _ _ (constant S512x2048 .f32 0x00000000#32) (ix2 r j))
      (Ideal.ofBits .f32 0x00000000#32) = _
  rw [Cert.MatmulNT.matmul_nt_apply _ rfl rfl rfl rfl rfl rfl, Ideal.ofBits_zero_f32]
  congr 1
  refine Finset.sum_congr rfl fun d _ => ?_
  show (shapeCast S512x64 x0 _ (ix2 r d) * Ideal.ofBits .f32 0x3E000000#32) * shapeCast S2048x64 x1 _ (ix2 j d) = _
  rw [queryBlock_apply, keyBlock_apply]

/-- The first store: the scores as a block with its leading unit axis. -/
theorem scoresStore_apply (x0 : Vec Ideal S1x512x64 .f32) (x1 : Vec Ideal S1x2048x64 .f32) (u : Fin 1) (r : Fin 512)
    (j : Fin 2048) :
    k0_pay2 (F := Ideal) x0 x1 (ix3 u r j)
      = max (∑ d : Fin 64, (x0 (ix3 (0 : Fin 1) r d) * Ideal.ofBits .f32 0x3E000000#32) * x1 (ix3 (0 : Fin 1) j d)) 0 := by
  unfold k0_pay2
  show shapeCast S1x512x2048 (k0_pay1 (F := Ideal) x0 x1) _ (ix3 u r j) = _
  rw [scoresBlock_apply, scores_apply]

/-- The second store: the scores against the value rows. -/
theorem contextStore_apply (x0 : Vec Ideal S1x512x64 .f32) (x1 x2 : Vec Ideal S1x2048x64 .f32) (u : Fin 1) (r : Fin 512)
    (e : Fin 64) :
    k0_pay3 (F := Ideal) x0 x1 x2 (ix3 u r e)
      = ∑ j : Fin 2048, k0_pay1 (F := Ideal) x0 x1 (ix2 r j) * x2 (ix3 (0 : Fin 1) j e) := by
  unfold k0_pay3
  simp only [matmul]
  show shapeCast S1x512x64 (FloatOps.matmul dot_S512x2048_S2048x64_S512x64_1_0_0_1_n_n none _ _ (constant S512x64 .f32 0x00000000#32)) _ (ix3 u r e) = _
  rw [contextBlock_apply, Cert.RowOps.matmul_row_apply _ rfl rfl rfl rfl rfl rfl]
  refine Finset.sum_congr rfl fun j _ => ?_
  show k0_pay1 (F := Ideal) x0 x1 (ix2 r j) * shapeCast S2048x64 x2 _ (ix2 j e) = _
  rw [keyBlock_apply]

end Cert.ReluAttention.Body

end
-- ==== Proof.Scale.lean ====
/-
  The one arithmetic fact that joins the two programs. The kernel scales every entry of a query row by the word
  `0x3E000000`, which denotes one eighth, before the row meets a key row; the reference divides the finished dot
  product by the square root of `64.0`, which is eight. On the extended reals division by a nonzero real is the
  product with its reciprocal at the infinities too, products commute and associate, and a nonnegative finite factor
  distributes over any sum (the one half of distributivity that does not need finite summands). So
  `∑ d, (q d · ⅛) · k d = (∑ d, q d · k d) / √64` for ALL extended-real entries: no finiteness of the inputs is used.
-/
import Idealize.ShloMosaic.PureOps.Ideal
import Idealize.ShloMosaic.PureOps.Ideal.Laws
import Mathlib.Data.EReal.Operations

noncomputable section

open scoped BigOperators

namespace Cert.ReluAttention

open Idealize.ShloMosaic

/-- The kernel's scale word `0x3E000000` denotes the real one eighth. -/
theorem ofBits_eighth : Ideal.ofBits .f32 0x3E000000#32 = (((1 : ℝ) / 8 : ℝ) : EReal) := by
  simp [Ideal.ofBits, Ideal.ieee, -EReal.coe_mul]; norm_num

/-- The reference's `64.0` denotes the real sixty-four. -/
theorem ofBits_64 : Ideal.ofBits .f32 0x42800000#32 = ((64 : ℝ) : EReal) := by
  simp [Ideal.ofBits, Ideal.ieee, -EReal.coe_mul]; norm_num

/-- Its square root is eight. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Dividing by the reference's `√64` is multiplying by the kernel's scale word, on every extended real. -/
theorem div_sqrt64 (x : EReal) :
    Ideal.div x (Ideal.sqrt (Ideal.ofBits .f32 0x42800000#32)) = x * Ideal.ofBits .f32 0x3E000000#32 := by
  rw [ofBits_64, sqrt_64, Ideal.div_coe (by norm_num), ofBits_eighth]

/-- A nonnegative finite factor comes out of a finite sum of extended reals, whatever the summands. -/
theorem sum_mul_of_nonneg_ne_top {ι : Type*} (s : Finset ι) (a : ι → EReal) {c : EReal} (h0 : 0 ≤ c) (ht : c ≠ ⊤) :
    (∑ d ∈ s, a d) * c = ∑ d ∈ s, a d * c := by
  classical
  induction s using Finset.induction_on with
  | empty => simp
  | insert x s hx ih =>
    rw [Finset.sum_insert hx, Finset.sum_insert hx, EReal.right_distrib_of_nonneg_of_ne_top h0 ht, ih]

/-- THE LAW: a query row scaled entry by entry and then met with a key row is the plain dot product divided by `√64`. -/
theorem scaled_dot {ι : Type*} [Fintype ι] (q k : ι → EReal) :
    ∑ d, (q d * Ideal.ofBits .f32 0x3E000000#32) * k d
      = Ideal.div (∑ d, q d * k d) (Ideal.sqrt (Ideal.ofBits .f32 0x42800000#32)) := by
  rw [div_sqrt64, ofBits_eighth,
    sum_mul_of_nonneg_ne_top _ _ (EReal.coe_nonneg.mpr (by norm_num)) (EReal.coe_ne_top _)]
  exact Finset.sum_congr rfl fun d _ => mul_right_comm _ _ _

end Cert.ReluAttention

end
-- ==== Proof.Spec.lean ====
/-
  What both programs compute, as functions of the argument arrays, index by index, on the extended reals.

  There are 4 · 16 = 64 independent attention problems (a batch entry `b` and a head `h`), each with 2048 query rows,
  2048 key rows and 2048 value rows of 64 entries. For one problem, query row `r` and key row `j`,
      score (r, j) = max (∑ d, (q (r, d) · ⅛) · k (j, d)) 0        (relu in place of a softmax: no normaliser),
  and for query row `r` and value column `e`,
      context (r, e) = ∑ j, score (r, j) · v (j, e).
  The kernel sees the 64 problems as the leading axis of rank-3 arrays (problem `g = 16 b + h`), reshaped from and back to
  the rank-4 arrays the caller passes; a reshape keeps the row-major position, and the position of `(b, h, r, d)` in
  [4, 16, 2048, n] is that of `(16 b + h, r, d)` in [64, 2048, n]. So the rank-3 functions of the reshaped arguments,
  reshaped back, are the rank-4 functions below of the arguments themselves.
-/
import proofs.«134147_j40166534152796_1_alg».proof.Proof.Scale
import Idealize.ShloMosaic.Lib.ValueIdx
import Idealize.ShloMosaic.Lib.Pipeline.Value

noncomputable section

open scoped BigOperators

namespace Cert.ReluAttention

open Idealize.ShloMosaic Idealize.ShloMosaic.ValueIdx

/-- The arguments as passed, [batch, head, row, entry]; as the kernel sees them, [problem, row, entry]; the scores per
    problem, [problem, query row, key row], and as returned, [batch, head, query row, key row]. -/
abbrev Sqkv4 : Shape := ⟨4, ![4, 16, 2048, 64]⟩
abbrev Sqkv3 : Shape := ⟨3, ![64, 2048, 64]⟩
abbrev Satt3 : Shape := ⟨3, ![64, 2048, 2048]⟩
abbrev Satt4 : Shape := ⟨4, ![4, 16, 2048, 2048]⟩

/-! ## Per problem, over the rank-3 arrays -/

/-- The relu score of query row `r` against key row `j` in problem `g`. -/
def scoreAt (Q K : Sqkv3.Idx → EReal) (g : Fin 64) (r j : Fin 2048) : EReal :=
  max (∑ d : Fin 64, (Q (ix3 g r d) * Ideal.ofBits .f32 0x3E000000#32) * K (ix3 g j d)) 0

/-- All scores. -/
def scores (Q K : Sqkv3.Idx → EReal) : Satt3.Idx → EReal := fun i => scoreAt Q K (i 0) (i 1) (i 2)

/-- The context of query row `r` at value column `e` in problem `g`: its scores against every key row, weighting the
    value rows. -/
def ctxAt (Q K V : Sqkv3.Idx → EReal) (g : Fin 64) (r : Fin 2048) (e : Fin 64) : EReal :=
  ∑ j : Fin 2048, scoreAt Q K g r j * V (ix3 g j e)

/-- All contexts. -/
def context (Q K V : Sqkv3.Idx → EReal) : Sqkv3.Idx → EReal := fun i => ctxAt Q K V (i 0) (i 1) (i 2)

/-! ## The same over the rank-4 arrays -/

def scoreAt4 (q k : Sqkv4.Idx → EReal) (b : Fin 4) (h : Fin 16) (r j : Fin 2048) : EReal :=
  max (∑ d : Fin 64, (q (ix4 b h r d) * Ideal.ofBits .f32 0x3E000000#32) * k (ix4 b h j d)) 0

def scores4 (q k : Sqkv4.Idx → EReal) : Satt4.Idx → EReal := fun i => scoreAt4 q k (i 0) (i 1) (i 2) (i 3)

def ctxAt4 (q k v : Sqkv4.Idx → EReal) (b : Fin 4) (h : Fin 16) (r : Fin 2048) (e : Fin 64) : EReal :=
  ∑ j : Fin 2048, scoreAt4 q k b h r j * v (ix4 b h j e)

def context4 (q k v : Sqkv4.Idx → EReal) : Sqkv4.Idx → EReal := fun i => ctxAt4 q k v (i 0) (i 1) (i 2) (i 3)

/-! ## The reshapes -/

/-- Batch entry `b` and head `h` are problem `16 b + h`. -/
def problem (b : Fin 4) (h : Fin 16) : Fin 64 := ⟨b.val * 16 + h.val, by omega⟩

/-- An argument reshaped to [64, 2048, 64], read at `(16 b + h, r, d)`, is the argument at `(b, h, r, d)`. -/
theorem reshape_arg_apply (x : Sqkv4.Idx → EReal) (hc : Sqkv4.ShapeCasts Sqkv3) (b : Fin 4) (h : Fin 16) (r : Fin 2048)
    (d : Fin 64) : shapeCast Sqkv3 x hc (ix3 (problem b h) r d) = x (ix4 b h r d) :=
  shapeCast_apply x hc _ _ (by
    rw [Shape.rowMajor_val_four, Shape.rowMajor_val_three]
    show ((b.val * 16 + h.val) * 2048 + r.val) * 64 + d.val = ((b.val * 16 + h.val) * 2048 + r.val) * 64 + d.val
    rfl)

/-- A [64, 2048, 2048] array reshaped to [4, 16, 2048, 2048], read at `(b, h, r, j)`, is the array at `(16 b + h, r, j)`. -/
theorem reshape_scores_apply (f : Satt3.Idx → EReal) (hc : Satt3.ShapeCasts Satt4) (b : Fin 4) (h : Fin 16)
    (r j : Fin 2048) : shapeCast Satt4 f hc (ix4 b h r j) = f (ix3 (problem b h) r j) :=
  shapeCast_apply f hc _ _ (by
    rw [Shape.rowMajor_val_four, Shape.rowMajor_val_three]
    show ((b.val * 16 + h.val) * 2048 + r.val) * 2048 + j.val = ((b.val * 16 + h.val) * 2048 + r.val) * 2048 + j.val
    rfl)

/-- A [64, 2048, 64] array reshaped to [4, 16, 2048, 64], read at `(b, h, r, e)`, is the array at `(16 b + h, r, e)`. -/
theorem reshape_context_apply (f : Sqkv3.Idx → EReal) (hc : Sqkv3.ShapeCasts Sqkv4) (b : Fin 4) (h : Fin 16)
    (r : Fin 2048) (e : Fin 64) : shapeCast Sqkv4 f hc (ix4 b h r e) = f (ix3 (problem b h) r e) :=
  shapeCast_apply f hc _ _ (by
    rw [Shape.rowMajor_val_four, Shape.rowMajor_val_three]
    show ((b.val * 16 + h.val) * 2048 + r.val) * 64 + e.val = ((b.val * 16 + h.val) * 2048 + r.val) * 64 + e.val
    rfl)

/-- A score of the reshaped arguments in problem `16 b + h` is the score of the arguments at `(b, h)`. -/
theorem scoreAt_reshape (q k : Sqkv4.Idx → EReal) (hc : Sqkv4.ShapeCasts Sqkv3) (b : Fin 4) (h : Fin 16) (r j : Fin 2048) :
    scoreAt (shapeCast Sqkv3 q hc) (shapeCast Sqkv3 k hc) (problem b h) r j = scoreAt4 q k b h r j := by
  unfold scoreAt scoreAt4
  simp only [reshape_arg_apply]

/-- Likewise a context entry. -/
theorem ctxAt_reshape (q k v : Sqkv4.Idx → EReal) (hc : Sqkv4.ShapeCasts Sqkv3) (b : Fin 4) (h : Fin 16) (r : Fin 2048)
    (e : Fin 64) :
    ctxAt (shapeCast Sqkv3 q hc) (shapeCast Sqkv3 k hc) (shapeCast Sqkv3 v hc) (problem b h) r e = ctxAt4 q k v b h r e := by
  unfold ctxAt ctxAt4
  simp only [scoreAt_reshape, reshape_arg_apply]

/-- THE SCORES, END TO END: reshape the arguments, take every problem's scores, reshape back. -/
theorem scores_reshaped (q k : Sqkv4.Idx → EReal) (hin : Sqkv4.ShapeCasts Sqkv3) (hout : Satt3.ShapeCasts Satt4) :
    shapeCast Satt4 (scores (shapeCast Sqkv3 q hin) (shapeCast Sqkv3 k hin)) hout = scores4 q k := by
  funext i
  obtain ⟨b, h, r, j, rfl⟩ : ∃ (b : Fin 4) (h : Fin 16) (r j : Fin 2048), i = ix4 b h r j :=
    ⟨i 0, i 1, i 2, i 3, eq_ix4 i⟩
  rw [reshape_scores_apply]
  exact scoreAt_reshape q k hin b h r j

/-- THE CONTEXT, END TO END. -/
theorem context_reshaped (q k v : Sqkv4.Idx → EReal) (hin : Sqkv4.ShapeCasts Sqkv3) (hout : Sqkv3.ShapeCasts Sqkv4) :
    shapeCast Sqkv4 (context (shapeCast Sqkv3 q hin) (shapeCast Sqkv3 k hin) (shapeCast Sqkv3 v hin)) hout
      = context4 q k v := by
  funext i
  obtain ⟨b, h, r, e, rfl⟩ : ∃ (b : Fin 4) (h : Fin 16) (r : Fin 2048) (e : Fin 64), i = ix4 b h r e :=
    ⟨i 0, i 1, i 2, i 3, eq_ix4 i⟩
  rw [reshape_context_apply]
  exact ctxAt_reshape q k v hin b h r e

end Cert.ReluAttention

end
-- ==== Proof.Blocks.lean ====
/-
  From the body's blocks to the whole arrays. The grid has 64 · 4 points: point `(g, qi)` works on problem `g` and on
  the 512 query rows `512 qi … 512 qi + 511`; it reads that block of the query array and ALL of problem `g`'s key and
  value rows, and writes back the block of scores `[g, 512 qi + r, j]` and the block of contexts `[g, 512 qi + r, e]`.
  A score or a context entry depends on ONE query row only, so what a point writes back is exactly its block of the
  whole-array functions `scores` and `context` of the arrays the region finds; the 256 blocks tile each output array
  (row `R` of problem `g` is in the block of point `(g, R / 512)`), so each output array ends holding that function.
-/
import proofs.«134147_j40166534152796_1_alg».proof.Proof.Gen.KernelIdeal.Frame
import proofs.«134147_j40166534152796_1_alg».proof.Proof.Payload
import proofs.«134147_j40166534152796_1_alg».proof.Proof.Spec

set_option maxRecDepth 16384

noncomputable section

open scoped BigOperators

namespace Cert.ReluAttention.Blocks

open Cert.KernelIdeal Cert.KernelIdeal.Gen Cert.ReluAttention Cert.ReluAttention.Body
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The arrays the region finds and the blocks a point is handed, at their literal types -/

abbrev qarr (c : Dev nD) : Vec Ideal S64x2048x64 .f32 := V m c main_v0
abbrev karr (c : Dev nD) : Vec Ideal S64x2048x64 .f32 := V m c main_v1
abbrev varr (c : Dev nD) : Vec Ideal S64x2048x64 .f32 := V m c main_v2
abbrev qblk (c : Dev nD) (t : Fin cfg0.N) : Vec Ideal S1x512x64 .f32 := iblk m c 0 t
abbrev kblk (c : Dev nD) (t : Fin cfg0.N) : Vec Ideal S1x2048x64 .f32 := iblk m c 1 t
abbrev vblk (c : Dev nD) (t : Fin cfg0.N) : Vec Ideal S1x2048x64 .f32 := iblk m c 2 t

theorem hz : (![0, 0, 0] : Fin 3 → Nat) = fun _ => 0 := funext fun a => by fin_cases a <;> rfl

/-! ## The schedule: which block each window is on at a point -/

/-- At every point the query window and both output windows are on block `(g, qi, 0)`, the key and value windows on
    block `(g, 0, 0)`, with `g < 64` and `qi < 4`. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (2 : Fin 3) = 0 :=
  (by decide +kernel : ∀ t : Fin grid0.N, _)

theorem prob_lt : ∀ t : Fin cfg0.N, win0_4.index t (0 : Fin 3) < 64 :=
  (by decide +kernel : ∀ t : Fin grid0.N, _)
theorem qi_lt : ∀ t : Fin cfg0.N, win0_4.index t (1 : Fin 3) < 4 :=
  (by decide +kernel : ∀ t : Fin grid0.N, _)

/-- The problem point `t` works on, and the array row of the block's row `r`. -/
def prob (t : Fin cfg0.N) : Fin 64 := ⟨win0_4.index t (0 : Fin 3), prob_lt t⟩
def qrow (t : Fin cfg0.N) (r : Fin 512) : Fin 2048 := ⟨win0_4.index t (1 : Fin 3) * 512 + r.val, by have := qi_lt t; omega⟩

/-- The point of problem `g` and row block `qi`. -/
def pt (g : Fin 64) (qi : Fin 4) : Fin cfg0.N := ⟨g.val * 4 + qi.val, by show _ < 256; omega⟩

theorem idx_at : ∀ (g : Fin 64) (qi : Fin 4),
    win0_4.index (pt g qi) (0 : Fin 3) = g.val ∧ win0_4.index (pt g qi) (1 : Fin 3) = qi.val :=
  by decide +kernel

/-! ## A point's input blocks, read off the arrays -/

theorem qblk_apply (c : Dev nD) (t : Fin cfg0.N) (r : Fin 512) (d : Fin 64) :
    qblk m c t (ix3 (0 : Fin 1) r d) = qarr m c (ix3 (prob t) (qrow t r) d) := by
  show V m c main_v0 (((cfg0.win 0).blk t).view.emb (ix3 (0 : Fin 1) r d)) = V m c main_v0 (ix3 (prob t) (qrow t r) d)
  refine congrArg _ (funext fun a => Fin.ext ?_)
  obtain ⟨e0, e1, e2, -⟩ := idx_facts t
  match a with
  | ⟨0, _⟩ => show win0_0.index t (0 : Fin 3) * 1 + 1 * 0 = win0_4.index t (0 : Fin 3); omega
  | ⟨1, _⟩ => show win0_0.index t (1 : Fin 3) * 512 + 1 * r.val = win0_4.index t (1 : Fin 3) * 512 + r.val; omega
  | ⟨2, _⟩ => show win0_0.index t (2 : Fin 3) * 64 + 1 * d.val = d.val; omega

theorem kblk_apply (c : Dev nD) (t : Fin cfg0.N) (j : Fin 2048) (d : Fin 64) :
    kblk m c t (ix3 (0 : Fin 1) j d) = karr m c (ix3 (prob t) j d) := by
  show V m c main_v1 (((cfg0.win 1).blk t).view.emb (ix3 (0 : Fin 1) j d)) = V m c main_v1 (ix3 (prob t) j d)
  refine congrArg _ (funext fun a => Fin.ext ?_)
  obtain ⟨-, -, -, e0, e1, e2, -⟩ := idx_facts t
  match a with
  | ⟨0, _⟩ => show win0_1.index t (0 : Fin 3) * 1 + 1 * 0 = win0_4.index t (0 : Fin 3); omega
  | ⟨1, _⟩ => show win0_1.index t (1 : Fin 3) * 2048 + 1 * j.val = j.val; omega
  | ⟨2, _⟩ => show win0_1.index t (2 : Fin 3) * 64 + 1 * d.val = d.val; omega

theorem vblk_apply (c : Dev nD) (t : Fin cfg0.N) (j : Fin 2048) (e : Fin 64) :
    vblk m c t (ix3 (0 : Fin 1) j e) = varr m c (ix3 (prob t) j e) := by
  show V m c main_v2 (((cfg0.win 2).blk t).view.emb (ix3 (0 : Fin 1) j e)) = V m c main_v2 (ix3 (prob t) j e)
  refine congrArg _ (funext fun a => Fin.ext ?_)
  obtain ⟨-, -, -, -, -, -, e0, e1, e2, -⟩ := idx_facts t
  match a with
  | ⟨0, _⟩ => show win0_2.index t (0 : Fin 3) * 1 + 1 * 0 = win0_4.index t (0 : Fin 3); omega
  | ⟨1, _⟩ => show win0_2.index t (1 : Fin 3) * 2048 + 1 * j.val = j.val; omega
  | ⟨2, _⟩ => show win0_2.index t (2 : Fin 3) * 64 + 1 * e.val = e.val; omega

/-! ## What a point stores is its block of the whole-array functions -/

theorem scores_at_point (c : Dev nD) (t : Fin cfg0.N) (u : Fin 1) (r : Fin 512) (j : Fin 2048) :
    k0_pay2 (F := Ideal) (qblk m c t) (kblk m c t) (ix3 u r j) = scoreAt (qarr m c) (karr m c) (prob t) (qrow t r) j := by
  refine (scoresStore_apply (qblk m c t) (kblk m c t) u r j).trans ?_
  unfold scoreAt
  simp only [qblk_apply, kblk_apply]

theorem context_at_point (c : Dev nD) (t : Fin cfg0.N) (u : Fin 1) (r : Fin 512) (e : Fin 64) :
    k0_pay3 (F := Ideal) (qblk m c t) (kblk m c t) (vblk m c t) (ix3 u r e)
      = ctxAt (qarr m c) (karr m c) (varr m c) (prob t) (qrow t r) e := by
  refine (contextStore_apply (qblk m c t) (kblk m c t) (vblk m c t) u r e).trans ?_
  unfold ctxAt
  refine Finset.sum_congr rfl fun j _ => ?_
  rw [scores_apply, vblk_apply]
  unfold scoreAt
  simp only [qblk_apply, kblk_apply]

/-! ## The output blocks' places in their arrays -/

theorem emb_scores (t : Fin cfg0.N) (u : Fin 1) (r : Fin 512) (j : Fin 2048) :
    ((cfg0.win 4).blk t).view.emb (ix3 u r j) = (ix3 (prob t) (qrow t r) j : S64x2048x2048.Idx) := by
  refine funext fun a => Fin.ext ?_
  have hu : u.val = 0 := by omega
  obtain ⟨-, -, -, -, -, -, -, -, -, -, -, -, e2⟩ := idx_facts t
  match a with
  | ⟨0, _⟩ => show win0_4.index t (0 : Fin 3) * 1 + 1 * u.val = win0_4.index t (0 : Fin 3); omega
  | ⟨1, _⟩ => show win0_4.index t (1 : Fin 3) * 512 + 1 * r.val = win0_4.index t (1 : Fin 3) * 512 + r.val; omega
  | ⟨2, _⟩ => show win0_4.index t (2 : Fin 3) * 2048 + 1 * j.val = j.val; omega

theorem emb_context (t : Fin cfg0.N) (u : Fin 1) (r : Fin 512) (e : Fin 64) :
    ((cfg0.win 3).blk t).view.emb (ix3 u r e) = (ix3 (prob t) (qrow t r) e : S64x2048x64.Idx) := by
  refine funext fun a => Fin.ext ?_
  have hu : u.val = 0 := by omega
  obtain ⟨-, -, -, -, -, -, -, -, -, e0, e1, e2, -⟩ := idx_facts t
  match a with
  | ⟨0, _⟩ => show win0_3.index t (0 : Fin 3) * 1 + 1 * u.val = win0_4.index t (0 : Fin 3); omega
  | ⟨1, _⟩ => show win0_3.index t (1 : Fin 3) * 512 + 1 * r.val = win0_4.index t (1 : Fin 3) * 512 + r.val; omega
  | ⟨2, _⟩ => show win0_3.index t (2 : Fin 3) * 64 + 1 * e.val = e.val; omega

/-- WHAT POINT `t` WRITES BACK to the scores array is block `t` of `scores` of the query and key arrays. -/
theorem flushed_scores (c : Dev nD) (t : Fin cfg0.N) :
    (dats m 0 c).flushed 4 t = ((cfg0.win 4).blk t).view.read (Elt Ideal) (scores (qarr m c) (karr m c)) := by
  show (cfg0.win 4).cut (grid0.coords t) ((dats m 0 c).after 4 t) = _
  rw [after0_4]
  unfold out0_4
  rw [View.canon_unit_zero hz]
  simp only [View.ld_unit_zero (S := S1x512x64) hz, View.ld_unit_zero (S := S1x2048x64) hz]
  refine funext fun (y : S1x512x2048.Idx) => ?_
  obtain ⟨u, r, j, rfl⟩ : ∃ (u : Fin 1) (r : Fin 512) (j : Fin 2048), y = ix3 u r j := ⟨y 0, y 1, y 2, eq_ix3 y⟩
  show k0_pay2 (F := Ideal) (qblk m c t) (kblk m c t) (ix3 u r j)
    = scores (qarr m c) (karr m c) (((cfg0.win 4).blk t).view.emb (ix3 u r j))
  rw [emb_scores]
  exact scores_at_point m c t u r j

/-- WHAT POINT `t` WRITES BACK to the context array is block `t` of `context` of the query, key and value arrays. -/
theorem flushed_context (c : Dev nD) (t : Fin cfg0.N) :
    (dats m 0 c).flushed 3 t = ((cfg0.win 3).blk t).view.read (Elt Ideal) (context (qarr m c) (karr m c) (varr m c)) := by
  show (cfg0.win 3).cut (grid0.coords t) ((dats m 0 c).after 3 t) = _
  rw [after0_3]
  unfold out0_3
  rw [View.canon_unit_zero hz]
  simp only [View.ld_unit_zero (S := S1x512x64) hz, View.ld_unit_zero (S := S1x2048x64) hz]
  refine funext fun (y : S1x512x64.Idx) => ?_
  obtain ⟨u, r, e, rfl⟩ : ∃ (u : Fin 1) (r : Fin 512) (e : Fin 64), y = ix3 u r e := ⟨y 0, y 1, y 2, eq_ix3 y⟩
  show k0_pay3 (F := Ideal) (qblk m c t) (kblk m c t) (vblk m c t) (ix3 u r e)
    = context (qarr m c) (karr m c) (varr m c) (((cfg0.win 3).blk t).view.emb (ix3 u r e))
  rw [emb_context]
  exact context_at_point m c t u r e

/-! ## The blocks tile the arrays -/

/-- An index of the scores array is in point `t`'s block iff each coordinate is in the block's range on its axis. -/
theorem mem_blk_scores (t : Fin cfg0.N) (i : S64x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v3_1).slice (win0_4.rect t)).set ↔ _
  rw [View.set_slice_whole, Rect.mem_set_unit]
  exact Iff.rfl

theorem mem_blk_context (t : Fin cfg0.N) (i : S64x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3_0).slice (win0_3.rect t)).set ↔ _
  rw [View.set_slice_whole, Rect.mem_set_unit]
  exact Iff.rfl

/-- Every index of the scores array is in the block of the point of its problem and its row's block of 512. -/
theorem cover_scores (i : S64x2048x2048.Idx) :
    ∃ t : Fin cfg0.N, (cfg0.win 4).flush t = true ∧ i ∈ ((cfg0.win 4).blk t).view.set := by
  have h0 : (i 0).val < 64 := (i 0).isLt
  have h1 : (i 1).val < 2048 := (i 1).isLt
  have h2 : (i 2).val < 2048 := (i 2).isLt
  obtain ⟨e0, e1⟩ := idx_at ⟨(i 0).val, h0⟩ ⟨(i 1).val / 512, by omega⟩
  obtain ⟨-, -, -, -, -, -, -, -, -, -, -, -, e2⟩ := idx_facts (pt ⟨(i 0).val, h0⟩ ⟨(i 1).val / 512, by omega⟩)
  refine ⟨pt ⟨(i 0).val, h0⟩ ⟨(i 1).val / 512, by omega⟩, flush0_4 _, ?_⟩
  rw [mem_blk_scores]
  intro a
  match a with
  | ⟨0, _⟩ =>
    show win0_4.index _ (0 : Fin 3) * 1 ≤ (i 0).val ∧ (i 0).val < win0_4.index _ (0 : Fin 3) * 1 + 1
    rw [e0]; show (i 0).val * 1 ≤ (i 0).val ∧ (i 0).val < (i 0).val * 1 + 1; omega
  | ⟨1, _⟩ =>
    show win0_4.index _ (1 : Fin 3) * 512 ≤ (i 1).val ∧ (i 1).val < win0_4.index _ (1 : Fin 3) * 512 + 512
    rw [e1]; show (i 1).val / 512 * 512 ≤ (i 1).val ∧ (i 1).val < (i 1).val / 512 * 512 + 512; omega
  | ⟨2, _⟩ =>
    show win0_4.index _ (2 : Fin 3) * 2048 ≤ (i 2).val ∧ (i 2).val < win0_4.index _ (2 : Fin 3) * 2048 + 2048
    rw [e2]; omega

theorem cover_context (i : S64x2048x64.Idx) :
    ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 64 := (i 2).isLt
  obtain ⟨e0, e1⟩ := idx_at ⟨(i 0).val, h0⟩ ⟨(i 1).val / 512, by omega⟩
  obtain ⟨-, -, -, -, -, -, -, -, -, f0, f1, f2, -⟩ := idx_facts (pt ⟨(i 0).val, h0⟩ ⟨(i 1).val / 512, by omega⟩)
  refine ⟨pt ⟨(i 0).val, h0⟩ ⟨(i 1).val / 512, by omega⟩, flush0_3 _, ?_⟩
  rw [mem_blk_context]
  intro a
  match a with
  | ⟨0, _⟩ =>
    show win0_3.index _ (0 : Fin 3) * 1 ≤ (i 0).val ∧ (i 0).val < win0_3.index _ (0 : Fin 3) * 1 + 1
    rw [f0, e0]; show (i 0).val * 1 ≤ (i 0).val ∧ (i 0).val < (i 0).val * 1 + 1; omega
  | ⟨1, _⟩ =>
    show win0_3.index _ (1 : Fin 3) * 512 ≤ (i 1).val ∧ (i 1).val < win0_3.index _ (1 : Fin 3) * 512 + 512
    rw [f1, e1]; show (i 1).val / 512 * 512 ≤ (i 1).val ∧ (i 1).val < (i 1).val / 512 * 512 + 512; omega
  | ⟨2, _⟩ =>
    show win0_3.index _ (2 : Fin 3) * 64 ≤ (i 2).val ∧ (i 2).val < win0_3.index _ (2 : Fin 3) * 64 + 64
    rw [f2]; omega

/-! ## The output arrays after the run -/

theorem final_scores (c : Dev nD) : (dats m 0 c).arrAt 4 cfg0.N = scores (qarr m c) (karr m c) :=
  (dats m 0 c).arrAt_eq_of_cover 4 (scores (qarr m c) (karr m c)) (fun t _ => flushed_scores m c t) cover_scores

theorem final_context (c : Dev nD) : (dats m 0 c).arrAt 3 cfg0.N = context (qarr m c) (karr m c) (varr m c) :=
  (dats m 0 c).arrAt_eq_of_cover 3 (context (qarr m c) (karr m c) (varr m c)) (fun t _ => flushed_context m c t) cover_context

end Cert.ReluAttention.Blocks

end
-- ==== Proof.KernelRun.lean ====
/-
  The idealized kernel's run, read end to end. Before the region @main reshapes each argument [4, 16, 2048, 64] to
  [64, 2048, 64]; the region leaves the context array and the scores array at `context` and `scores` of those; after
  it @main reshapes the two back to rank 4. Reshaping in, computing per problem and reshaping out is the rank-4
  specification of the arguments themselves.
-/
import proofs.«134147_j40166534152796_1_alg».proof.Proof.Blocks
import Idealize.ShloMosaic.Lib.StableHlo.Run

set_option maxRecDepth 16384

noncomputable section

open scoped BigOperators

namespace Cert.ReluAttention.KernelRun

open Cert.KernelIdeal Cert.KernelIdeal.Gen Cert.ReluAttention Cert.ReluAttention.Blocks
open Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ) (ρ : Dev nD → PrngReg)

/-! ## Before the region: the arrays it finds are the arguments reshaped -/

theorem qarr_eq (c : Dev nD) :
    qarr m c = shapeCast S64x2048x64 (m ((c : Thread nD τ).loc main_arg0)) shapeCasts_S4x16x2048x64_S64x2048x64 := by
  show StableHlo.after hostOps0 (fun b => m (c, b)) (Proc.devRef .tc main_v0) = _
  after_results
  rfl

theorem karr_eq (c : Dev nD) :
    karr m c = shapeCast S64x2048x64 (m ((c : Thread nD τ).loc main_arg1)) shapeCasts_S4x16x2048x64_S64x2048x64 := by
  show StableHlo.after hostOps0 (fun b => m (c, b)) (Proc.devRef .tc main_v1) = _
  after_results
  rfl

theorem varr_eq (c : Dev nD) :
    varr m c = shapeCast S64x2048x64 (m ((c : Thread nD τ).loc main_arg2)) shapeCasts_S4x16x2048x64_S64x2048x64 := by
  show StableHlo.after hostOps0 (fun b => m (c, b)) (Proc.devRef .tc main_v2) = _
  after_results
  rfl

/-! ## After the region: the two results are the output arrays reshaped -/

theorem tail_context (c : Dev nD) :
    Pipeline.afterTail₀ cfgs (dats m) 0 (V0 m) [hostOps1] c main_v4
      = shapeCast S4x16x2048x64 ((dats m 0 c).arrAt 3 cfg0.N) shapeCasts_S64x2048x64_S4x16x2048x64 := by
  unfold Pipeline.afterTail₀
  show StableHlo.after hostOps1 _ (Proc.devRef .tc main_v4) = _
  after_results
  exact congrArg (fun x => shapeCast S4x16x2048x64 x shapeCasts_S64x2048x64_S4x16x2048x64)
    (Pipeline.withArrays_arr spec0 launch0.win.arr_inj c (V0 m c) (fun w => (dats m 0 c).arrAt w cfg0.N) 3)

theorem tail_scores (c : Dev nD) :
    Pipeline.afterTail₀ cfgs (dats m) 0 (V0 m) [hostOps1] c main_v5
      = shapeCast S4x16x2048x2048 ((dats m 0 c).arrAt 4 cfg0.N) shapeCasts_S64x2048x2048_S4x16x2048x2048 := by
  unfold Pipeline.afterTail₀
  show StableHlo.after hostOps1 _ (Proc.devRef .tc main_v5) = _
  after_results
  exact congrArg (fun x => shapeCast S4x16x2048x2048 x shapeCasts_S64x2048x2048_S4x16x2048x2048)
    (Pipeline.withArrays_arr spec0 launch0.win.arr_inj c (V0 m c) (fun w => (dats m 0 c).arrAt w cfg0.N) 4)

/-! ## The two results as functions of the arguments -/

theorem result_context (c : Dev nD) :
    Pipeline.afterTail₀ cfgs (dats m) 0 (V0 m) [hostOps1] c main_v4
      = context4 (m ((c : Thread nD τ).loc main_arg0)) (m ((c : Thread nD τ).loc main_arg1)) (m ((c : Thread nD τ).loc main_arg2)) := by
  rw [tail_context, final_context, qarr_eq, karr_eq, varr_eq]
  exact context_reshaped _ _ _ _ _

theorem result_scores (c : Dev nD) :
    Pipeline.afterTail₀ cfgs (dats m) 0 (V0 m) [hostOps1] c main_v5
      = scores4 (m ((c : Thread nD τ).loc main_arg0)) (m ((c : Thread nD τ).loc main_arg1)) := by
  rw [tail_scores, final_scores, qarr_eq, karr_eq]
  exact scores_reshaped _ _ _ _

/-! ## The run -/

/-- Every weakly fair execution of the idealized kernel's @main terminates with the context result at `context4` and
    the scores result at `scores4` of the arguments, the arguments unchanged. -/
theorem run : θ_run defs (onTc (τ := τ) (main (F := Ideal))) ⟨m, fun _ => 0, ρ⟩ fun r => ∀ c : Dev nD,
      r.2.mem ((c.tc : Thread nD τ).loc main_v4)
        = context4 (m ((c.tc : Thread nD τ).loc main_arg0)) (m ((c.tc : Thread nD τ).loc main_arg1)) (m ((c.tc : Thread nD τ).loc main_arg2))
      ∧ r.2.mem ((c.tc : Thread nD τ).loc main_v5)
        = scores4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_context m c),
      ((h c).2 main_v5 (Pipeline.mem_restRefs_of main_v5 (by decide) (by decide))).trans (result_scores m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReluAttention.KernelRun

end
-- ==== Proof.RefSide.lean ====
/-
  The reference, read at an index: its scores are `max ((∑ d, q (b,h,r,d) · k (b,h,j,d)) / √64) 0` and its context the
  scores against the value rows; by the scale law (a row scaled by ⅛ entry by entry, then dotted, is the dot product
  divided by √64) these are the specification's `scores4` and `context4`.
-/
import proofs.«134147_j40166534152796_1_alg».proof.Proof.Gen.ReferenceIdeal.Read
import proofs.«134147_j40166534152796_1_alg».proof.Proof.Spec

noncomputable section

open scoped BigOperators

namespace Cert.ReluAttention.Reference

open Cert.ReferenceIdeal Cert.ReferenceIdeal.Gen Cert.ReferenceIdeal.Read Cert.ReluAttention
open Idealize.ShloMosaic Idealize.ShloMosaic.ValueIdx

/-- The first product's operand indices at result index `(b, h, r, j)` and contraction position `k`: query row `r` and
    key row `j` of the same batch entry and head, entry `k` of each. -/
theorem lidx_scores (b : Fin 4) (h : Fin 16) (r j : Fin 2048) (k : Fin 64) :
    lidx_main_v0 (ix4 b h r j) k = ix4 b h r k :=
  funext fun a => Fin.ext (by match a with | ⟨0, _⟩ => rfl | ⟨1, _⟩ => rfl | ⟨2, _⟩ => rfl | ⟨3, _⟩ => rfl)
theorem ridx_scores (b : Fin 4) (h : Fin 16) (r j : Fin 2048) (k : Fin 64) :
    ridx_main_v0 (ix4 b h r j) k = ix4 b h j k :=
  funext fun a => Fin.ext (by match a with | ⟨0, _⟩ => rfl | ⟨1, _⟩ => rfl | ⟨2, _⟩ => rfl | ⟨3, _⟩ => rfl)

/-- The second product's: score `(r, k)` and value row `k` at column `e`. -/
theorem lidx_context (b : Fin 4) (h : Fin 16) (r : Fin 2048) (e : Fin 64) (k : Fin 2048) :
    lidx_main_v5 (ix4 b h r e) k = ix4 b h r k :=
  funext fun a => Fin.ext (by match a with | ⟨0, _⟩ => rfl | ⟨1, _⟩ => rfl | ⟨2, _⟩ => rfl | ⟨3, _⟩ => rfl)
theorem ridx_context (b : Fin 4) (h : Fin 16) (r : Fin 2048) (e : Fin 64) (k : Fin 2048) :
    ridx_main_v5 (ix4 b h r e) k = ix4 b h k e :=
  funext fun a => Fin.ext (by match a with | ⟨0, _⟩ => rfl | ⟨1, _⟩ => rfl | ⟨2, _⟩ => rfl | ⟨3, _⟩ => rfl)

/-- One score of the reference is the specification's. -/
theorem score_eq (x0 x1 : Sqkv4.Idx → EReal) (b : Fin 4) (h : Fin 16) (r j : Fin 2048) :
    val_main_v4 (F := Ideal) x0 x1 (ix4 b h r j) = scoreAt4 x0 x1 b h r j := by
  rw [val_main_v4_apply, val_main_v3_apply, val_main_v0_apply, val_main_v2_apply, val_main_v1_apply, val_main_cst_apply,
    val_main_call0_v0_apply, val_main_call0_cst_apply]
  simp only [lidx_scores, ridx_scores, Ideal.maximumf_def, Ideal.hostDivf_def, Ideal.hostUnary_sqrt_def, Ideal.ofBits_def,
    Ideal.ofBits_zero_f32]
  unfold scoreAt4
  rw [scaled_dot]

/-- All of them. -/
theorem scores_eq (x0 x1 : Sqkv4.Idx → EReal) : val_main_v4 (F := Ideal) x0 x1 = scores4 x0 x1 := by
  funext i
  obtain ⟨b, h, r, j, rfl⟩ : ∃ (b : Fin 4) (h : Fin 16) (r j : Fin 2048), i = ix4 b h r j :=
    ⟨i 0, i 1, i 2, i 3, eq_ix4 i⟩
  exact score_eq x0 x1 b h r j

/-- The reference's context is the specification's. -/
theorem context_eq (x0 x1 x2 : Sqkv4.Idx → EReal) : val_main_v5 (F := Ideal) x0 x1 x2 = context4 x0 x1 x2 := by
  funext i
  obtain ⟨b, h, r, e, rfl⟩ : ∃ (b : Fin 4) (h : Fin 16) (r : Fin 2048) (e : Fin 64), i = ix4 b h r e :=
    ⟨i 0, i 1, i 2, i 3, eq_ix4 i⟩
  rw [val_main_v5_apply]
  simp only [lidx_context, ridx_context, score_eq]
  rfl

end Cert.ReluAttention.Reference

end
-- ==== Proof.lean ====
/-
  Scaled dot-product attention with a relu in place of the softmax, 64 independent problems (4 batch entries by 16
  heads) of 2048 query, key and value rows of 64 entries: the kernel against the plain formula.

  Both programs return, for every problem,
      scores (r, j)  = relu of the scaled dot product of query row r with key row j,
      context (r, e) = ∑ j, scores (r, j) · value (j, e).
  They differ in two ways. (1) WHERE THE SCALE GOES: the kernel multiplies every query entry by ⅛ before the dot
  product, the reference divides the finished dot product by √64 = 8. On the extended reals division by a nonzero real
  is the product with its reciprocal (at the infinities too), products commute and associate, and a nonnegative finite
  factor distributes over a sum whatever the summands; so the two scores are equal for ALL extended-real inputs, and the
  finiteness the precondition grants is never used. (2) THE ARRANGEMENT: the kernel collapses batch and head into one
  leading axis (a reshape, which keeps row-major positions: (b, h) is problem 16 b + h), cuts each problem's query rows
  into four blocks of 512, computes each block's scores against all key rows and its contexts against all value rows
  (both depend on one query row only, so a block of rows is a block of the result), and reshapes back; the narrowing of
  the products' operands to a shorter float format is the identity on the extended reals, a matrix product into a zero
  accumulator is a plain sum, and a sum does not depend on how it is tiled.

  The modules: `Scale` (the constants and the scale law), `Spec` (the two results as functions of the arguments, per
  problem and end to end through the reshapes), `RefSide` (the reference is the specification), `Payload` (what the
  body stores, at an index), `Blocks` (a point writes its block of the specification; the blocks tile the arrays),
  `KernelRun` (the reshapes around the region; the kernel's run at the specification). Here: the five claims.
-/
import proofs.«134147_j40166534152796_1_alg».proof.Defs
import proofs.«134147_j40166534152796_1_alg».proof.Proof.Gen.Kernel
import proofs.«134147_j40166534152796_1_alg».proof.Proof.Gen.Kernel.Skeleton
import proofs.«134147_j40166534152796_1_alg».proof.Proof.Gen.Kernel.Launch
import proofs.«134147_j40166534152796_1_alg».proof.Proof.Gen.Kernel.Points
import proofs.«134147_j40166534152796_1_alg».proof.Proof.Gen.Kernel.Frame
import proofs.«134147_j40166534152796_1_alg».proof.Proof.Gen.KernelIdeal
import proofs.«134147_j40166534152796_1_alg».proof.Proof.Gen.KernelIdeal.Skeleton
import proofs.«134147_j40166534152796_1_alg».proof.Proof.Gen.KernelIdeal.Launch
import proofs.«134147_j40166534152796_1_alg».proof.Proof.Gen.KernelIdeal.Points
import proofs.«134147_j40166534152796_1_alg».proof.Proof.Gen.KernelIdeal.Frame
import proofs.«134147_j40166534152796_1_alg».proof.Proof.Gen.ReferenceIdeal
import proofs.«134147_j40166534152796_1_alg».proof.Proof.Gen.Pre_finite_inputs
import proofs.«134147_j40166534152796_1_alg».proof.Proof.Gen.ReferenceIdeal.Run
import proofs.«134147_j40166534152796_1_alg».proof.Proof.Gen.ReferenceIdeal.Read
import proofs.«134147_j40166534152796_1_alg».proof.Proof.KernelRun
import proofs.«134147_j40166534152796_1_alg».proof.Proof.RefSide
import Idealize.ShloMosaic.Adequacy
import Idealize.ShloMosaic.Init

noncomputable section

namespace Cert.Proof

open Idealize.ShloMosaic Idealize.SL.Sem Cert.ReluAttention

/-- The word-level kernel runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its generated run, the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- Both idealized programs end with the context at `context4` and the scores at `scores4` of the arguments: the
    kernel by its run read through the reshapes and the blocks, the reference by its run read operation by operation
    and the scale law. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => context4 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
    fun c => scores4 (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    Cert.ReluAttention.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v5_eq, Cert.ReluAttention.Reference.context_eq,
      (hagree c).1, (hagree c).2.1, (hagree c).2.2]
  · rw [Cert.ReferenceIdeal.Read.val_main_v4_eq, Cert.ReluAttention.Reference.scores_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
